-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x256 : Shape := ⟨4, ![8, 128, 128, 256]⟩
abbrev S1x128x1x1 : Shape := ⟨4, ![1, 128, 1, 1]⟩
abbrev S_ : Shape := ⟨0, ![]⟩

class Facts : Prop where
  bcast_S_S8x128x128x256 : S_.BroadcastsInDim S8x128x128x256 (![] : Fin 0 → Fin S8x128x128x256.rank)
  reducesTo_S8x128x128x256_S_d0_1_2_3 : S8x128x128x256.ReducesTo [0, 1, 2, 3] S_
  h_S_ : 0 < S_.numel
  bcast_S_S1x128x1x1 : S_.BroadcastsInDim S1x128x1x1 (![] : Fin 0 → Fin S1x128x1x1.rank)
  reducesTo_S1x128x1x1_S_d0_1_2_3 : S1x128x1x1.ReducesTo [0, 1, 2, 3] S_

variable [Facts]

def fn {F : FTy → Type} [FloatOps F] (main_arg0 : FVec F S8x128x128x256 .f32) (main_arg1 : FVec F S1x128x1x1 .f32) (main_arg2 : FVec F S1x128x1x1 .f32) : IVec S_ 1 :=
  let main_v0 : FVec F S8x128x128x256 .f32 := Host.absf main_arg0
  let main_cst : FVec F S_ .f32 := constant S_ .f32 0x7F800000#32
  let main_v1 : FVec F S8x128x128x256 .f32 := broadcastInDim S8x128x128x256 ![] bcast_S_S8x128x128x256 main_cst
  let main_v2 : IVec S8x128x128x256 1 := cmpf .olt main_v0 main_v1
  let main_c : IVec S_ 1 := constantI S_ 1 1#1
  let main_v3 : IVec S_ 1 := (fun x v => Host.reduce IntOp.andi x v reducesTo_S8x128x128x256_S_d0_1_2_3 h_S_) main_v2 main_c
  let main_v4 : FVec F S1x128x1x1 .f32 := Host.absf main_arg1
  let main_cst_0 : FVec F S_ .f32 := constant S_ .f32 0x7F800000#32
  let main_v5 : FVec F S1x128x1x1 .f32 := broadcastInDim S1x128x1x1 ![] bcast_S_S1x128x1x1 main_cst_0
  let main_v6 : IVec S1x128x1x1 1 := cmpf .olt main_v4 main_v5
  let main_c_1 : IVec S_ 1 := constantI S_ 1 1#1
  let main_v7 : IVec S_ 1 := (fun x v => Host.reduce IntOp.andi x v reducesTo_S1x128x1x1_S_d0_1_2_3 h_S_) main_v6 main_c_1
  let main_v8 : IVec S_ 1 := andi main_v3 main_v7
  let main_v9 : FVec F S1x128x1x1 .f32 := Host.absf main_arg2
  let main_cst_2 : FVec F S_ .f32 := constant S_ .f32 0x7F800000#32
  let main_v10 : FVec F S1x128x1x1 .f32 := broadcastInDim S1x128x1x1 ![] bcast_S_S1x128x1x1 main_cst_2
  let main_v11 : IVec S1x128x1x1 1 := cmpf .olt main_v9 main_v10
  let main_c_3 : IVec S_ 1 := constantI S_ 1 1#1
  let main_v12 : IVec S_ 1 := (fun x v => Host.reduce IntOp.andi x v reducesTo_S1x128x1x1_S_d0_1_2_3 h_S_) main_v11 main_c_3
  let main_v13 : IVec S_ 1 := andi main_v8 main_v12
  main_v13
-- ==== Kernel.lean ====
abbrev S8x128x128x256 : Shape := ⟨4, ![8, 128, 128, 256]⟩
abbrev S1x128x1x1 : Shape := ⟨4, ![1, 128, 1, 1]⟩
abbrev S1x32x128x256 : Shape := ⟨4, ![1, 32, 128, 256]⟩
abbrev S1x32x1x1 : Shape := ⟨4, ![1, 32, 1, 1]⟩
abbrev S1x32x128 : Shape := ⟨3, ![1, 32, 128]⟩
abbrev S1x32x128x1 : Shape := ⟨4, ![1, 32, 128, 1]⟩

abbrev nBuf : Space → Nat
  | .hbm => 4
  | .vmem => 8
  | .smem => 0
  | _ => 0

abbrev bufTy : (tb : Table) → Fin (tcTables nBuf tb) → BufTy
  | .hbm, ⟨0, _⟩ => ⟨S8x128x128x256, .f32⟩
  | .hbm, ⟨1, _⟩ => ⟨S1x128x1x1, .f32⟩
  | .hbm, ⟨2, _⟩ => ⟨S1x128x1x1, .f32⟩
  | .hbm, ⟨3, _⟩ => ⟨S8x128x128x256, .f32⟩
  | .local _ .vmem, ⟨0, _⟩ => ⟨S1x32x128x256, .f32⟩
  | .local _ .vmem, ⟨1, _⟩ => ⟨S1x32x128x256, .f32⟩
  | .local _ .vmem, ⟨2, _⟩ => ⟨S1x32x1x1, .f32⟩
  | .local _ .vmem, ⟨3, _⟩ => ⟨S1x32x1x1, .f32⟩
  | .local _ .vmem, ⟨4, _⟩ => ⟨S1x32x1x1, .f32⟩
  | .local _ .vmem, ⟨5, _⟩ => ⟨S1x32x1x1, .f32⟩
  | .local _ .vmem, ⟨6, _⟩ => ⟨S1x32x128x256, .f32⟩
  | .local _ .vmem, ⟨7, _⟩ => ⟨S1x32x128x256, .f32⟩
  | _, _ => ⟨S8x128x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x32x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x32x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x32x128x256_S1x32x128x256_0_0_0_0 : ∀ a, (![0, 0, 0, 0] : Fin 4 → Nat) a + S1x32x128x256.size a ≤ S1x32x128x256.size a
  h_S1x32x128x256 : 0 < S1x32x128x256.numel
  reduces_S1x32x128x256_S1x32x128 : S1x32x128x256.Reduces [3] S1x32x128
  shapeCasts_S1x32x128_S1x32x128x1 : S1x32x128.ShapeCasts S1x32x128x1
  broadcasts_S1x32x128x1_S1x32x128x256 : S1x32x128x1.Broadcasts S1x32x128x256
  inb_S1x32x1x1_S1x32x1x1_0_0_0_0 : ∀ a, (![0, 0, 0, 0] : Fin 4 → Nat) a + S1x32x1x1.size a ≤ S1x32x1x1.size a
  h_S1x32x1x1 : 0 < S1x32x1x1.numel
  broadcasts_S1x32x1x1_S1x32x128x256 : S1x32x1x1.Broadcasts S1x32x128x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x128x256.size a ≤ S8x128x128x256.size a
  hwx0_0 : ∀ i : grid0.Coords, EltTy.bits .f32 = 32 ∨ (Rect.block (s := S8x128x128x256) S1x32x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x1x1.size a ≤ S1x128x1x1.size a
  hwx0_1 : ∀ i : grid0.Coords, EltTy.bits .f32 = 32 ∨ (Rect.block (s := S1x128x1x1) S1x32x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x1x1.size a ≤ S1x128x1x1.size a
  hwx0_2 : ∀ i : grid0.Coords, EltTy.bits .f32 = 32 ∨ (Rect.block (s := S1x128x1x1) S1x32x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x128x256.size a ≤ S8x128x128x256.size a
  hwx0_3 : ∀ i : grid0.Coords, EltTy.bits .f32 = 32 ∨ (Rect.block (s := S8x128x128x256) S1x32x128x256.size (cc0_transform_3 i) (hinb0_3 i)).WholeWords (EltTy.packing .f32)

variable [Facts₀]

abbrev win0_0 : Pipeline.Window sig grid0 :=
  Pipeline.Window.ofSpec (Memref.whole main_arg0) S1x32x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x32x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32x128x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x128x128x256 : Shape := ⟨4, ![8, 128, 128, 256]⟩
abbrev S1x128x1x1 : Shape := ⟨4, ![1, 128, 1, 1]⟩
abbrev S_ : Shape := ⟨0, ![]⟩
abbrev S8x128x128 : Shape := ⟨3, ![8, 128, 128]⟩
abbrev S8x128x128x1 : Shape := ⟨4, ![8, 128, 128, 1]⟩

abbrev nBuf : Space → Nat
  | .hbm => 28
  | .vmem => 0
  | .smem => 0
  | _ => 0

abbrev bufTy : (tb : Table) → Fin (tcTables nBuf tb) → BufTy
  | .hbm, ⟨0, _⟩ => ⟨S8x128x128x256, .f32⟩
  | .hbm, ⟨1, _⟩ => ⟨S1x128x1x1, .f32⟩
  | .hbm, ⟨2, _⟩ => ⟨S1x128x1x1, .f32⟩
  | .hbm, ⟨3, _⟩ => ⟨S_, .f32⟩
  | .hbm, ⟨4, _⟩ => ⟨S8x128x128, .f32⟩
  | .hbm, ⟨5, _⟩ => ⟨S8x128x128x1, .f32⟩
  | .hbm, ⟨6, _⟩ => ⟨S_, .f32⟩
  | .hbm, ⟨7, _⟩ => ⟨S8x128x128x1, .f32⟩
  | .hbm, ⟨8, _⟩ => ⟨S8x128x128x1, .f32⟩
  | .hbm, ⟨9, _⟩ => ⟨S8x128x128x256, .f32⟩
  | .hbm, ⟨10, _⟩ => ⟨S8x128x128x256, .f32⟩
  | .hbm, ⟨11, _⟩ => ⟨S8x128x128x256, .f32⟩
  | .hbm, ⟨12, _⟩ => ⟨S_, .f32⟩
  | .hbm, ⟨13, _⟩ => ⟨S8x128x128, .f32⟩
  | .hbm, ⟨14, _⟩ => ⟨S8x128x128x1, .f32⟩
  | .hbm, ⟨15, _⟩ => ⟨S_, .f32⟩
  | .hbm, ⟨16, _⟩ => ⟨S8x128x128x1, .f32⟩
  | .hbm, ⟨17, _⟩ => ⟨S8x128x128x1, .f32⟩
  | .hbm, ⟨18, _⟩ => ⟨S_, .f32⟩
  | .hbm, ⟨19, _⟩ => ⟨S8x128x128x1, .f32⟩
  | .hbm, ⟨20, _⟩ => ⟨S8x128x128x1, .f32⟩
  | .hbm, ⟨21, _⟩ => ⟨S8x128x128x1, .f32⟩
  | .hbm, ⟨22, _⟩ => ⟨S8x128x128x256, .f32⟩
  | .hbm, ⟨23, _⟩ => ⟨S8x128x128x256, .f32⟩
  | .hbm, ⟨24, _⟩ => ⟨S8x128x128x256, .f32⟩
  | .hbm, ⟨25, _⟩ => ⟨S8x128x128x256, .f32⟩
  | .hbm, ⟨26, _⟩ => ⟨S8x128x128x256, .f32⟩
  | .hbm, ⟨27, _⟩ => ⟨S8x128x128x256, .f32⟩
  | _, _ => ⟨S8x128x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  reducesTo_S8x128x128x256_S8x128x128_d3 : S8x128x128x256.ReducesTo [3] S8x128x128
  h_S_ : 0 < S_.numel
  bcast_S8x128x128_S8x128x128x1_0_1_2 : S8x128x128.BroadcastsInDim S8x128x128x1 (![0, 1, 2] : Fin 3 → Fin S8x128x128x1.rank)
  bcast_S_S8x128x128x1 : S_.BroadcastsInDim S8x128x128x1 (![] : Fin 0 → Fin S8x128x128x1.rank)
  bcast_S8x128x128x1_S8x128x128x256_0_1_2_3 : S8x128x128x1.BroadcastsInDim S8x128x128x256 (![0, 1, 2, 3] : Fin 4 → Fin S8x128x128x256.rank)
  bcast_S1x128x1x1_S8x128x128x256_0_1_2_3 : S1x128x1x1.BroadcastsInDim S8x128x128x256 (![0, 1, 2, 3] : Fin 4 → Fin S8x128x128x256.rank)

variable [Facts₀]

class Facts : Prop extends Facts₀ where

variable [Facts]
-- ==== Proof.LayerNormSpec.lean ====
/-
  Layer normalisation over the last axis, with a per-channel scale and shift, as ONE function of the
  argument arrays read index by index over the extended reals.

  For an activation `X` of shape [8, 128, 128, 256] and parameters `g`, `b` of shape [1, 128, 1, 1],
  the entry at `i = (n, c, h, w)` is

      (X i - μ) / sqrt (σ² + ε) * g (0, c, 0, 0) + b (0, c, 0, 0)

  where `μ` is the mean of the 256 entries of the row `(n, c, h, ·)` that holds `i`, `σ²` the mean of the
  squared deviations of that row from `μ`, the two means taken as a sum divided by the float `256`, and
  `ε` the float nearest to `1e-8`. Both float literals are kept as their bit patterns: the two programs
  carry the same words, so their values never need to be computed.
-/
import Idealize.ShloMosaic.PureOps.Ideal
import Idealize.ShloMosaic.PureOps.Ideal.Laws
import Idealize.ShloMosaic.Lib.ValueIdx

noncomputable section

open Idealize.ShloMosaic

namespace Cert.LayerNorm

/-- The activation's shape. -/
abbrev SX : Shape := ⟨4, ![8, 128, 128, 256]⟩
/-- The shape of the per-channel scale and shift. -/
abbrev SP : Shape := ⟨4, ![1, 128, 1, 1]⟩

/-- The `k`-th entry of the row that holds `i`: `i` with its last coordinate replaced by `k`. -/
abbrev inRow (i : SX.Idx) (k : Fin 256) : SX.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩

/-- Where the parameters are read for the entry at `i`: at `i`'s channel, the unit axes at `0`. -/
abbrev chan (i : SX.Idx) : SP.Idx := fun a => match a with
  | ⟨0, _⟩ => ⟨0, Nat.one_pos⟩
  | ⟨1, _⟩ => ⟨(i 1).val, (i 1).isLt⟩
  | ⟨2, _⟩ => ⟨0, Nat.one_pos⟩
  | ⟨3, _⟩ => ⟨0, Nat.one_pos⟩

/-- The float `256`, the length of a row. -/
abbrev rowLen : EReal := Ideal.ofBits .f32 0x43800000#32
/-- The float nearest to `1e-8`. -/
abbrev eps : EReal := Ideal.ofBits .f32 0x322BCC77#32

/-- The mean of the row that holds `i`. -/
def rowMean (X : SX.Idx → EReal) (i : SX.Idx) : EReal :=
  Ideal.div (∑ k : Fin 256, X (inRow i k)) rowLen

/-- The entry at `i` less its row's mean. -/
def centered (X : SX.Idx → EReal) (i : SX.Idx) : EReal := X i - rowMean X i

/-- The mean squared deviation of the row that holds `i`. -/
def rowVar (X : SX.Idx → EReal) (i : SX.Idx) : EReal :=
  Ideal.div (∑ k : Fin 256, centered X (inRow i k) * centered X (inRow i k)) rowLen

/-- The normalised, scaled and shifted entry at `i`. -/
def layerNorm (X : SX.Idx → EReal) (g b : SP.Idx → EReal) (i : SX.Idx) : EReal :=
  Ideal.div (centered X i) (Ideal.sqrt (rowVar X i + eps)) * g (chan i) + b (chan i)

/-- Replacing the last coordinate twice keeps the second replacement. -/
theorem inRow_inRow (i : SX.Idx) (k k' : Fin 256) : inRow (inRow i k) k' = inRow i k' :=
  funext fun a => Fin.ext (by match a with | ⟨0, _⟩ => rfl | ⟨1, _⟩ => rfl | ⟨2, _⟩ => rfl | ⟨3, _⟩ => rfl)

/-- An entry's channel is its row's channel. -/
theorem chan_inRow (i : SX.Idx) (k : Fin 256) : chan (inRow i k) = chan i :=
  funext fun a => Fin.ext (by match a with | ⟨0, _⟩ => rfl | ⟨1, _⟩ => rfl | ⟨2, _⟩ => rfl | ⟨3, _⟩ => rfl)

end Cert.LayerNorm

end
-- ==== Proof.ReferenceValue.lean ====
/-
  What the reference computes, read index by index over the extended reals: its result array is
  `Cert.LayerNorm.layerNorm` of its three arguments.

  The reference takes the two row means by a sum over the last axis from the initial value `0`, kept as a
  column of shape [8, 128, 128, 1] and broadcast back over the row; the deviations, their squares, the
  square root and the quotients are entrywise; scale and shift are broadcast from their channel. Each stage
  is read at an index from the stage before, and the index it reads is the one the specification names
  (`inRow` for a row's entries, `chan` for a channel's parameters).
-/
import proofs.«149544_j1580547968901_1_alg».proof.Proof.Gen.ReferenceIdeal.Read
import proofs.«149544_j1580547968901_1_alg».proof.Proof.LayerNormSpec

noncomputable section

open Idealize.ShloMosaic Idealize.ShloMosaic.TcCoe Idealize.SL.Sem

namespace Cert.ReferenceIdeal.RefValue

open Cert.ReferenceIdeal Cert.ReferenceIdeal.Gen Cert.ReferenceIdeal.Read Cert.LayerNorm

/-- The first sum's entries for the row of `j`: the column is read at `j`'s row, the sum at that row's entries. -/
theorem sumIdx (j : S8x128x128x256.Idx) (k : Fin 256) : idx_main_v0 (idx_main_v1 (idx_main_v4 j)) k = inRow j k :=
  funext fun a => Fin.ext (by match a with | ⟨0, _⟩ => rfl | ⟨1, _⟩ => rfl | ⟨2, _⟩ => rfl | ⟨3, _⟩ => rfl)

/-- The second sum's entries for the row of `j`, likewise. -/
theorem sqSumIdx (j : S8x128x128x256.Idx) (k : Fin 256) : idx_main_v7 (idx_main_v8 (idx_main_v14 j)) k = inRow j k :=
  funext fun a => Fin.ext (by match a with | ⟨0, _⟩ => rfl | ⟨1, _⟩ => rfl | ⟨2, _⟩ => rfl | ⟨3, _⟩ => rfl)

/-- The scale is read at `j`'s channel. -/
theorem scaleIdx (j : S8x128x128x256.Idx) : idx_main_v16 j = chan j :=
  funext fun a => Fin.ext (by match a with | ⟨0, _⟩ => rfl | ⟨1, _⟩ => rfl | ⟨2, _⟩ => rfl | ⟨3, _⟩ => rfl)

/-- The shift is read at `j`'s channel. -/
theorem shiftIdx (j : S8x128x128x256.Idx) : idx_main_v18 j = chan j :=
  funext fun a => Fin.ext (by match a with | ⟨0, _⟩ => rfl | ⟨1, _⟩ => rfl | ⟨2, _⟩ => rfl | ⟨3, _⟩ => rfl)

/-- The broadcast mean at `j` is the mean of `j`'s row: the sum starts from the zero word, which is `0`. -/
theorem mean_eq (x0 : (⟨S8x128x128x256, .f32⟩ : BufTy).Contents (Elt Ideal)) (j : S8x128x128x256.Idx) :
    val_main_v4 (F := Ideal) x0 j = rowMean x0 j := by
  rw [val_main_v4_apply, val_main_v3_apply, val_main_v1_apply, val_main_v0_apply, val_main_v2_apply,
    val_main_cst_0_apply, val_main_cst_apply]
  simp only [sumIdx, Ideal.hostDivf_def, Ideal.ofBits_def, Ideal.ofBits_zero_f32, zero_add]
  rfl

/-- The deviation at `j`. -/
theorem centered_eq (x0 : (⟨S8x128x128x256, .f32⟩ : BufTy).Contents (Elt Ideal)) (j : S8x128x128x256.Idx) :
    val_main_v5 (F := Ideal) x0 j = centered x0 j := by
  rw [val_main_v5_apply, mean_eq]
  rfl

/-- The broadcast root at `j`: the square root of the row's mean squared deviation plus `ε`. -/
theorem root_eq (x0 : (⟨S8x128x128x256, .f32⟩ : BufTy).Contents (Elt Ideal)) (j : S8x128x128x256.Idx) :
    val_main_v14 (F := Ideal) x0 j = Ideal.sqrt (rowVar x0 j + eps) := by
  rw [val_main_v14_apply, val_main_v13_apply, val_main_v12_apply, val_main_v10_apply, val_main_v8_apply,
    val_main_v7_apply, val_main_v9_apply, val_main_v11_apply, val_main_cst_1_apply, val_main_cst_2_apply,
    val_main_cst_3_apply]
  simp only [sqSumIdx, val_main_v6_apply, centered_eq, Ideal.hostDivf_def, Ideal.hostUnary_sqrt_def, Ideal.addf_def,
    Ideal.mulf_def, Ideal.ofBits_def, Ideal.ofBits_zero_f32, zero_add]
  rfl

/-- The reference's result array is the specification of its arguments. -/
theorem result_eq (x0 : (⟨S8x128x128x256, .f32⟩ : BufTy).Contents (Elt Ideal))
    (x1 x2 : (⟨S1x128x1x1, .f32⟩ : BufTy).Contents (Elt Ideal)) :
    val_main_v19 (F := Ideal) x0 x1 x2 = layerNorm x0 x1 x2 := by
  funext j
  rw [val_main_v19_apply, val_main_v17_apply, val_main_v18_apply, val_main_v16_apply, val_main_v15_apply,
    centered_eq, root_eq, scaleIdx, shiftIdx]
  rfl

end Cert.ReferenceIdeal.RefValue

end
-- ==== Proof.BlockValue.lean ====
/-
  What the kernel's body leaves in one output block, read index by index over the extended reals.

  A block holds 32 channels of one batch entry with the full rows, shape [1, 32, 128, 256], so a row's
  256 entries lie in one block and both row means are taken inside it: the body sums a block over its
  last axis, keeps the sums as a column [1, 32, 128, 1], divides by the float `256`, and broadcasts the
  column back over the rows. Stated here for ARBITRARY block contents `P0`, `P1`, `P2` that are an
  activation `X` and parameters `g`, `b` read through an embedding `e` of block indices into array
  indices that carries a block row onto an array row: the block's entry at `y` is then
  `Cert.LayerNorm.layerNorm X g b (e y)`.
-/
import proofs.«149544_j1580547968901_1_alg».proof.Proof.Gen.KernelIdeal.Value
import proofs.«149544_j1580547968901_1_alg».proof.Proof.LayerNormSpec
import Idealize.ShloMosaic.PureOps.Ideal.Laws
import Idealize.ShloMosaic.Lib.Pipeline.Value

noncomputable section

open Idealize.ShloMosaic Idealize.ShloMosaic.TcCoe Idealize.SL.Sem

namespace Cert.KernelIdeal.BlockValue

open Cert.KernelIdeal Cert.KernelIdeal.Gen Cert.KernelIdeal.Value Cert.LayerNorm

/-- Where a column of shape [1, 32, 128, 1], broadcast over the rows, is read for the block entry at `z`:
    at `z`'s row. -/
abbrev colOf (z : S1x32x128x256.Idx) : S1x32x128x1.Idx := fun a => match a with
  | ⟨0, _⟩ => ⟨0, Nat.one_pos⟩
  | ⟨1, _⟩ => ⟨(z 1).val, (z 1).isLt⟩
  | ⟨2, _⟩ => ⟨(z 2).val, (z 2).isLt⟩
  | ⟨3, _⟩ => ⟨0, Nat.one_pos⟩

/-- The row of the block entry at `z`, as an index of the row sums [1, 32, 128]. -/
abbrev rowOf (z : S1x32x128x256.Idx) : S1x32x128.Idx := fun a => match a with
  | ⟨0, _⟩ => ⟨0, Nat.one_pos⟩
  | ⟨1, _⟩ => ⟨(z 1).val, (z 1).isLt⟩
  | ⟨2, _⟩ => ⟨(z 2).val, (z 2).isLt⟩

/-- The `k`-th entry of the block row that holds `z`: what the sum over the last axis ranges over. -/
abbrev rowEntry (z : S1x32x128x256.Idx) (k : Fin 256) : S1x32x128x256.Idx :=
  reduces_S1x32x128x256_S1x32x128.lift (rowOf z) k

/-- A column broadcast over the rows, read at `z`, is the column at `z`'s row. -/
theorem bcastCol_apply {α : Type} (w : S1x32x128x1.Idx → α) (z : S1x32x128x256.Idx) :
    broadcastTo S1x32x128x256 w broadcasts_S1x32x128x1_S1x32x128x256 z = w (colOf z) :=
  broadcastTo_apply w broadcasts_S1x32x128x1_S1x32x128x256 z (colOf z) (fun a => match a with
    | ⟨0, _⟩ => by show 0 = (if (1 : Nat) = 1 then 0 else (z 0).val); rw [if_pos rfl]
    | ⟨1, _⟩ => by show (z 1).val = (if (32 : Nat) = 1 then 0 else (z 1).val); rw [if_neg (by decide)]
    | ⟨2, _⟩ => by show (z 2).val = (if (128 : Nat) = 1 then 0 else (z 2).val); rw [if_neg (by decide)]
    | ⟨3, _⟩ => by show 0 = (if (1 : Nat) = 1 then 0 else (z 3).val); rw [if_pos rfl])

/-- Row values kept as a column, read at `z`'s row, are the row values there: the two shapes have the same
    row-major order. -/
theorem keepCol_apply {α : Type} (v : S1x32x128.Idx → α) (z : S1x32x128x256.Idx) :
    shapeCast S1x32x128x1 v shapeCasts_S1x32x128_S1x32x128x1 (colOf z) = v (rowOf z) :=
  shapeCast_apply v shapeCasts_S1x32x128_S1x32x128x1 (colOf z) (rowOf z) (by
    rw [Shape.rowMajor_val_three, Shape.rowMajor_val_four]
    show (0 * 32 + (z 1).val) * 128 + (z 2).val = ((0 * 32 + (z 1).val) * 128 + (z 2).val) * 1 + 0
    omega)

/-- A block summed over its last axis, read at a row: the sum of that row's 256 entries. -/
theorem rowSum_apply (src : FVec Ideal S1x32x128x256 .f32) (j : S1x32x128.Idx) :
    multiReduction .add [3] S1x32x128 src 0x00000000#32 reduces_S1x32x128x256_S1x32x128 (.inl rfl) rfl j
      = ∑ k : Fin 256, src (reduces_S1x32x128x256_S1x32x128.lift j k) :=
  Ideal.multiReduction_add_single src 0x00000000#32 reduces_S1x32x128x256_S1x32x128 (.inl rfl) rfl j

/-- The block's deviations from its rows' means, as the body computes them. -/
abbrev dev (P0 : Vec Ideal S1x32x128x256 .f32) : FVec Ideal S1x32x128x256 .f32 :=
  subf P0 (broadcastTo S1x32x128x256 (divf (shapeCast S1x32x128x1 (multiReduction .add [3] S1x32x128 P0 0x00000000#32 reduces_S1x32x128x256_S1x32x128 (.inl rfl) rfl) shapeCasts_S1x32x128_S1x32x128x1) (broadcast S1x32x128x1 (Scalar.ofBits .f32 0x43800000#32))) broadcasts_S1x32x128x1_S1x32x128x256)

/-- A deviation at `z`: the entry less the sum of its block row over the float `256`. -/
theorem dev_apply (P0 : Vec Ideal S1x32x128x256 .f32) (z : S1x32x128x256.Idx) :
    dev P0 z = P0 z - Ideal.div (∑ k : Fin 256, P0 (rowEntry z k)) rowLen := by
  show FloatOps.subf (F := Ideal) (φ := .f32) (P0 z) (broadcastTo S1x32x128x256 _ broadcasts_S1x32x128x1_S1x32x128x256 z) = _
  rw [bcastCol_apply]
  show FloatOps.subf (F := Ideal) (φ := .f32) (P0 z) (FloatOps.divf (shapeCast S1x32x128x1 _ shapeCasts_S1x32x128_S1x32x128x1 (colOf z)) (Scalar.ofBits .f32 0x43800000#32)) = _
  rw [keepCol_apply, rowSum_apply]
  rfl

/-- The generated reading of the block, with the deviations named. -/
theorem block_eq (P0 : Vec Ideal S1x32x128x256 .f32) (P1 P2 : Vec Ideal S1x32x1x1 .f32) (y : S1x32x128x256.Idx) :
    E3 P0 P1 P2 y = FloatOps.addf (FloatOps.mulf (FloatOps.divf (FloatOps.subf (P0 (ix3_0 y)) (FloatOps.divf ((multiReduction .add [3] S1x32x128 P0 0x00000000#32 reduces_S1x32x128x256_S1x32x128 (.inl rfl) rfl) (ix3_1 y)) (Scalar.ofBits .f32 0x43800000#32))) (FloatOps.sqrt (FloatOps.addf (FloatOps.divf ((multiReduction .add [3] S1x32x128 (mulf (dev P0) (dev P0)) 0x00000000#32 reduces_S1x32x128x256_S1x32x128 (.inl rfl) rfl) (ix3_2 y)) (Scalar.ofBits .f32 0x43800000#32)) (Scalar.ofBits .f32 0x322BCC77#32)))) (P1 (ix3_3 y))) (P2 (ix3_4 y)) := rfl

/-- ONE BLOCK IS THE SPECIFICATION read through the block's embedding `e`, when the block's contents are the arrays
    read through it: the activation at `e z` (`hP0`), the parameters at the channel of `e z` (`hP1`, `hP2`), and
    a block row going onto the array row (`he`), so that a sum over a block row is the sum over the array row. -/
theorem block_spec (X : SX.Idx → EReal) (g b : SP.Idx → EReal)
    (P0 : Vec Ideal S1x32x128x256 .f32) (P1 P2 : Vec Ideal S1x32x1x1 .f32)
    (e : S1x32x128x256.Idx → SX.Idx)
    (hP0 : ∀ z, P0 z = X (e z))
    (he : ∀ z (k : Fin 256), e (rowEntry z k) = inRow (e z) k)
    (hP1 : ∀ z, P1 (ix3_3 z) = g (chan (e z)))
    (hP2 : ∀ z, P2 (ix3_4 z) = b (chan (e z)))
    (y : S1x32x128x256.Idx) :
    E3 P0 P1 P2 y = layerNorm X g b (e y) := by
  have hy0 : ix3_0 y = y :=
    funext fun a => Fin.ext (by match a with | ⟨0, _⟩ => (have h0 : (y 0).val < 1 := (y 0).isLt; show 0 = (y 0).val; omega) | ⟨1, _⟩ => rfl | ⟨2, _⟩ => rfl | ⟨3, _⟩ => rfl)
  have hsum : ∀ z, (∑ k : Fin 256, P0 (rowEntry z k)) = ∑ k : Fin 256, X (inRow (e z) k) :=
    fun z => Finset.sum_congr rfl fun k _ => by rw [hP0, he]
  have hdev : ∀ z, dev P0 z = centered X (e z) := fun z => by
    rw [dev_apply, hP0, hsum]; rfl
  have hsq : (∑ k : Fin 256, (mulf (dev P0) (dev P0)) (rowEntry y k))
      = ∑ k : Fin 256, centered X (inRow (e y) k) * centered X (inRow (e y) k) :=
    Finset.sum_congr rfl fun k _ => by
      show FloatOps.mulf (dev P0 (rowEntry y k)) (dev P0 (rowEntry y k)) = _
      rw [hdev, he]; rfl
  rw [block_eq, hy0, hP1, hP2, rowSum_apply, rowSum_apply]
  show FloatOps.addf (F := Ideal) (φ := .f32) (FloatOps.mulf (FloatOps.divf (FloatOps.subf (P0 y) (FloatOps.divf (∑ k : Fin 256, P0 (rowEntry y k)) _)) (FloatOps.sqrt (FloatOps.addf (FloatOps.divf (∑ k : Fin 256, (mulf (dev P0) (dev P0)) (rowEntry y k)) _) _))) _) _ = _
  rw [hsq, hsum, hP0]
  rfl

end Cert.KernelIdeal.BlockValue

end
-- ==== Proof.ArrayValue.lean ====
/-
  From blocks to the array: after the kernel's run its result array is `Cert.LayerNorm.layerNorm` of the
  argument arrays.

  Grid point `(n, q)` of the 8 × 4 grid stages batch entry `n`, channels `32 q … 32 q + 31`, of the activation
  and of the result, whole rows, and the same 32 channels of scale and shift. So the block's embedding into the
  array moves along a row exactly as the array does, the activation block is the activation read through the
  result block's embedding, and the parameter blocks are the parameters read at the embedded channel: one block is
  the specification read through the embedding (`BlockValue.block_spec`). The 32 result blocks tile the array —
  entry `(n, c, h, w)` lies in the block of point `(n, c / 32)` —, so the array ends holding the specification
  everywhere.
-/
import proofs.«149544_j1580547968901_1_alg».proof.Proof.BlockValue
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.Value Cert.KernelIdeal.BlockValue Cert.LayerNorm

variable (m : (ℓ : Loc nD τ sig) → Buf (Elt Ideal) ℓ) (ρ : Dev nD → PrngReg)

theorem zeroOffsets : (![0, 0, 0, 0] : Fin 4 → Nat) = fun _ => 0 := funext fun a => by fin_cases a <;> rfl

/-- The activation as the region finds it. -/
abbrev act (c : Dev nD) : SX.Idx → EReal := V m c main_arg0
/-- The scale as the region finds it. -/
abbrev scale (c : Dev nD) : SP.Idx → EReal := V m c main_arg1
/-- The shift as the region finds it. -/
abbrev shift (c : Dev nD) : SP.Idx → EReal := V m c main_arg2

/-- The block index maps, decided over the 32 grid points: the activation's block moves with the result's; the
    parameters' blocks follow the result's channel block and stay at `0` on the other axes; the result's block
    index is `(n, q, 0, 0)` with `n ≤ 7`, `q ≤ 3`. -/
theorem blockIdx : ∀ t : Fin cfg0.N,
    win0_0.index t (0 : Fin 4) = win0_3.index t (0 : Fin 4) ∧ win0_0.index t (1 : Fin 4) = win0_3.index t (1 : Fin 4)
    ∧ win0_0.index t (2 : Fin 4) = 0 ∧ win0_0.index t (3 : Fin 4) = 0
    ∧ win0_1.index t (0 : Fin 4) = 0 ∧ win0_1.index t (1 : Fin 4) = win0_3.index t (1 : Fin 4)
    ∧ win0_1.index t (2 : Fin 4) = 0 ∧ win0_1.index t (3 : Fin 4) = 0
    ∧ win0_2.index t (0 : Fin 4) = 0 ∧ win0_2.index t (1 : Fin 4) = win0_3.index t (1 : Fin 4)
    ∧ win0_2.index t (2 : Fin 4) = 0 ∧ win0_2.index t (3 : Fin 4) = 0
    ∧ win0_3.index t (2 : Fin 4) = 0 ∧ win0_3.index t (3 : Fin 4) = 0
    ∧ win0_3.index t (0 : Fin 4) ≤ 7 ∧ win0_3.index t (1 : Fin 4) ≤ 3 :=
  (by decide +kernel : ∀ t : Fin grid0.N, _)

/-- Every pair of a batch entry and a channel block is some grid point's. -/
theorem blockIdx_onto : ∀ (n : Fin 8) (q : Fin 4), ∃ t : Fin cfg0.N, win0_3.index t = ![n.val, q.val, 0, 0] :=
  (by decide +kernel : ∀ (n : Fin 8) (q : Fin 4), ∃ t : Fin grid0.N, win0_3.index t = ![n.val, q.val, 0, 0])

/-- WHAT POINT `t` WRITES BACK is block `t` of the specification of the argument arrays. -/
theorem flushed_eq (c : Dev nD) (t : Fin cfg0.N) :
    (dats m 0 c).flushed 3 t
      = ((cfg0.win 3).blk t).view.read (Elt Ideal) (layerNorm (act m c) (scale m c) (shift m c)) := by
  rw [Value.flushed3]
  unfold out0_3
  simp only [View.ld_unit_zero (S := S1x32x128x256) zeroOffsets, View.ld_unit_zero (S := S1x32x1x1) zeroOffsets]
  obtain ⟨a0, a1, a2, a3, g0, g1, g2, g3, s0, s1, s2, s3, o2, o3, -, -⟩ := blockIdx t
  funext y
  show View.canon ([⟨r0_0, k0_pay1 (iblk m c 0 t) (iblk m c 1 t) (iblk m c 2 t)⟩] :
      List (View.Piece (Elt Ideal) S1x32x128x256 .f32)) y
    = layerNorm (act m c) (scale m c) (shift m c) (((cfg0.win 3).blk t).view.emb y)
  refine (canon3_eq (iblk m c 0 t) (iblk m c 1 t) (iblk m c 2 t) y).trans ?_
  refine block_spec (act m c) (scale m c) (shift m c) (iblk m c 0 t) (iblk m c 1 t) (iblk m c 2 t)
    (((cfg0.win 3).blk t).view.emb) ?_ ?_ ?_ ?_ y
  · -- the activation block is the activation read through the result block's embedding
    intro z
    show V m c main_arg0 (((cfg0.win 0).blk t).view.emb z) = V m c main_arg0 (((cfg0.win 3).blk t).view.emb z)
    refine congrArg (V m c main_arg0) (funext fun a => Fin.ext ?_)
    match a with
    | ⟨0, _⟩ => show win0_0.index t (0 : Fin 4) * 1 + 1 * (z 0).val = win0_3.index t (0 : Fin 4) * 1 + 1 * (z 0).val; omega
    | ⟨1, _⟩ => show win0_0.index t (1 : Fin 4) * 32 + 1 * (z 1).val = win0_3.index t (1 : Fin 4) * 32 + 1 * (z 1).val; omega
    | ⟨2, _⟩ => show win0_0.index t (2 : Fin 4) * 128 + 1 * (z 2).val = win0_3.index t (2 : Fin 4) * 128 + 1 * (z 2).val; omega
    | ⟨3, _⟩ => show win0_0.index t (3 : Fin 4) * 256 + 1 * (z 3).val = win0_3.index t (3 : Fin 4) * 256 + 1 * (z 3).val; omega
  · -- a block row goes onto an array row
    intro z k
    have hz0 : (z 0).val < 1 := (z 0).isLt
    funext a; apply Fin.ext
    match a with
    | ⟨0, _⟩ => show win0_3.index t (0 : Fin 4) * 1 + 1 * 0 = win0_3.index t (0 : Fin 4) * 1 + 1 * (z 0).val; omega
    | ⟨1, _⟩ => show win0_3.index t (1 : Fin 4) * 32 + 1 * (z 1).val = win0_3.index t (1 : Fin 4) * 32 + 1 * (z 1).val; rfl
    | ⟨2, _⟩ => show win0_3.index t (2 : Fin 4) * 128 + 1 * (z 2).val = win0_3.index t (2 : Fin 4) * 128 + 1 * (z 2).val; rfl
    | ⟨3, _⟩ => show win0_3.index t (3 : Fin 4) * 256 + 1 * k.val = k.val; omega
  · -- the scale block is the scale read at the embedded channel
    intro z
    show V m c main_arg1 (((cfg0.win 1).blk t).view.emb (ix3_3 z)) = V m c main_arg1 (chan (((cfg0.win 3).blk t).view.emb z))
    refine congrArg (V m c main_arg1) (funext fun a => Fin.ext ?_)
    match a with
    | ⟨0, _⟩ => show win0_1.index t (0 : Fin 4) * 1 + 1 * 0 = 0; omega
    | ⟨1, _⟩ => show win0_1.index t (1 : Fin 4) * 32 + 1 * (z 1).val = win0_3.index t (1 : Fin 4) * 32 + 1 * (z 1).val; omega
    | ⟨2, _⟩ => show win0_1.index t (2 : Fin 4) * 1 + 1 * 0 = 0; omega
    | ⟨3, _⟩ => show win0_1.index t (3 : Fin 4) * 1 + 1 * 0 = 0; omega
  · -- the shift block is the shift read at the embedded channel
    intro z
    show V m c main_arg2 (((cfg0.win 2).blk t).view.emb (ix3_4 z)) = V m c main_arg2 (chan (((cfg0.win 3).blk t).view.emb z))
    refine congrArg (V m c main_arg2) (funext fun a => Fin.ext ?_)
    match a with
    | ⟨0, _⟩ => show win0_2.index t (0 : Fin 4) * 1 + 1 * 0 = 0; omega
    | ⟨1, _⟩ => show win0_2.index t (1 : Fin 4) * 32 + 1 * (z 1).val = win0_3.index t (1 : Fin 4) * 32 + 1 * (z 1).val; omega
    | ⟨2, _⟩ => show win0_2.index t (2 : Fin 4) * 1 + 1 * 0 = 0; omega
    | ⟨3, _⟩ => show win0_2.index t (3 : Fin 4) * 1 + 1 * 0 = 0; omega

/-- An index of the result array is in point `t`'s block iff each coordinate is in the block's range on its axis. -/
theorem mem_block (t : Fin cfg0.N) (i : S8x128x128x256.Idx) :
    i ∈ ((cfg0.win 3).blk t).view.set ↔ ∀ a : Fin 4, win0_3.index t a * S1x32x128x256.size a ≤ (i a).val
      ∧ (i a).val < win0_3.index t a * S1x32x128x256.size a + S1x32x128x256.size a := by
  show i ∈ ((View.whole main_v0).slice (win0_3.rect t)).set ↔ _
  rw [View.set_slice_whole, Rect.mem_set_unit]
  exact Iff.rfl

/-- THE RESULT ARRAY after the run is the specification: the blocks tile it. -/
theorem final (c : Dev nD) : (dats m 0 c).arrAt 3 cfg0.N = layerNorm (act m c) (scale m c) (shift m c) :=
  (dats m 0 c).arrAt_eq_of_cover 3 (layerNorm (act m c) (scale m c) (shift m c)) (fun t _ => flushed_eq m c t) fun i => by
    have hi0 : (i 0).val < 8 := (i 0).isLt
    have hi1 : (i 1).val < 128 := (i 1).isLt
    have hi2 : (i 2).val < 128 := (i 2).isLt
    have hi3 : (i 3).val < 256 := (i 3).isLt
    obtain ⟨t, ht⟩ := blockIdx_onto ⟨(i 0).val, hi0⟩ ⟨(i 1).val / 32, by omega⟩
    have q0 : win0_3.index t (0 : Fin 4) = (i 0).val := congrFun ht 0
    have q1 : win0_3.index t (1 : Fin 4) = (i 1).val / 32 := congrFun ht 1
    have q2 : win0_3.index t (2 : Fin 4) = 0 := congrFun ht 2
    have q3 : win0_3.index t (3 : Fin 4) = 0 := congrFun ht 3
    refine ⟨t, flush0_3 t, ?_⟩
    rw [mem_block]
    intro a
    match a with
    | ⟨0, _⟩ => show win0_3.index t (0 : Fin 4) * 1 ≤ (i 0).val ∧ (i 0).val < win0_3.index t (0 : Fin 4) * 1 + 1; omega
    | ⟨1, _⟩ => show win0_3.index t (1 : Fin 4) * 32 ≤ (i 1).val ∧ (i 1).val < win0_3.index t (1 : Fin 4) * 32 + 32; omega
    | ⟨2, _⟩ => show win0_3.index t (2 : Fin 4) * 128 ≤ (i 2).val ∧ (i 2).val < win0_3.index t (2 : Fin 4) * 128 + 128; omega
    | ⟨3, _⟩ => show win0_3.index t (3 : Fin 4) * 256 ≤ (i 3).val ∧ (i 3).val < win0_3.index t (3 : Fin 4) * 256 + 256; omega

/-- The kernel's run, read: the result array at the specification of the arguments as launched, the arguments unchanged. -/
theorem run : θ_run defs (onTc (τ := τ) (main (F := Ideal))) ⟨m, fun _ => 0, ρ⟩ fun r => ∀ c : Dev nD,
      r.2.mem ((c : Thread nD τ).loc main_v0)
        = layerNorm (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.lean ====
/-
  A layer normalisation over the last axis (length 256) of an activation [8, 128, 128, 256], followed by a
  per-channel scale and shift [1, 128, 1, 1]: the kernel against its array-level reference, over the extended reals.

  Both programs compute, for the entry at `(n, c, h, w)`,

      (x - μ) / sqrt (σ² + ε) · g_c + b_c,      μ = (Σ_k x_k) / 256,      σ² = (Σ_k (x_k - μ)²) / 256,

  the sums over the row `(n, c, h, ·)`, with the same float words for `256` and `ε`, the same order of the
  entrywise operations, and a division and a square root that are one function on the extended reals on both sides.
  They differ only in layout: the kernel works on blocks of 32 channels of one batch entry, each holding whole rows,
  so both row sums are inside a block; the reference reduces the whole array and broadcasts the column back. A sum
  over a block row IS the sum over the array row it embeds onto, so no algebraic law is needed and no finiteness of
  the inputs is used.

  `Proof/LayerNormSpec.lean` states that function; `Proof/ReferenceValue.lean` reads the reference's result as it;
  `Proof/BlockValue.lean` reads one kernel block as it through the block's embedding; `Proof/ArrayValue.lean` tiles
  the result array with the blocks. The three frames are the generated ones (the reference's is its run with the
  result dropped), and the idealisation rewrote nothing, so that conjunct is `True`.
-/
import proofs.«149544_j1580547968901_1_alg».proof.Defs
import proofs.«149544_j1580547968901_1_alg».proof.Proof.Gen.Kernel
import proofs.«149544_j1580547968901_1_alg».proof.Proof.Gen.Kernel.Skeleton
import proofs.«149544_j1580547968901_1_alg».proof.Proof.Gen.Kernel.Launch
import proofs.«149544_j1580547968901_1_alg».proof.Proof.Gen.Kernel.Points
import proofs.«149544_j1580547968901_1_alg».proof.Proof.Gen.Kernel.Frame
import proofs.«149544_j1580547968901_1_alg».proof.Proof.Gen.KernelIdeal
import proofs.«149544_j1580547968901_1_alg».proof.Proof.Gen.KernelIdeal.Skeleton
import proofs.«149544_j1580547968901_1_alg».proof.Proof.Gen.KernelIdeal.Launch
import proofs.«149544_j1580547968901_1_alg».proof.Proof.Gen.KernelIdeal.Points
import proofs.«149544_j1580547968901_1_alg».proof.Proof.Gen.KernelIdeal.Frame
import proofs.«149544_j1580547968901_1_alg».proof.Proof.Gen.ReferenceIdeal
import proofs.«149544_j1580547968901_1_alg».proof.Proof.Gen.Pre_finite_inputs
import proofs.«149544_j1580547968901_1_alg».proof.Proof.Gen.KernelIdeal.Value
import proofs.«149544_j1580547968901_1_alg».proof.Proof.Gen.ReferenceIdeal.Run
import proofs.«149544_j1580547968901_1_alg».proof.Proof.Gen.ReferenceIdeal.Read
import proofs.«149544_j1580547968901_1_alg».proof.Proof.ReferenceValue
import proofs.«149544_j1580547968901_1_alg».proof.Proof.ArrayValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments the kernel's result array and the reference's are the
    normalisation of the same arrays. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v19_eq (F := Ideal) _ _ _).trans ?_
  rw [Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
